-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S128x96 : Shape := ⟨2, ![128, 96]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x96 1) : IVec S_ 1 :=
  let main_c_5 : IVec S_ 1 := constantI S_ 1 1#1
  let main_v17 : IVec S_ 1 := (fun x v => Host.reduce IntOp.andi x v reducesTo_S128x96_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S50000x96 .f32) (main_arg1 : IVec S2x800000 32) (main_arg2 : FVec F S128x96 .f32) (main_arg3 : FVec F S128 .f32) (main_arg4 : FVec F S128x96 .f32) (main_arg5 : FVec F S64x128 .f32) (main_arg6 : FVec F S64 .f32) (main_arg7 : FVec F S64x128 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S128x96 .f32 := Host.absf main_arg2
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x96 .f32 := Host.absf main_arg4
  let main_cst_4 : FVec F S_ .f32 := constant S_ .f32 0x7F800000#32
  let main_v15 : FVec F S128x96 .f32 := broadcastInDim S128x96 ![] bcast_S_S128x96 main_cst_4
  let main_v16 : IVec S128x96 1 := cmpf .olt main_v14 main_v15
  fn_part1 (F := F) main_arg5 main_arg6 main_arg7 main_v13 main_v16
-- ==== Kernel.lean ====
abbrev S50000x96 : Shape := ⟨2, ![50000, 96]⟩
abbrev S2x800000 : Shape := ⟨2, ![2, 800000]⟩
abbrev S128x96 : Shape := ⟨2, ![128, 96]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S800000x1 : Shape := ⟨2, ![800000, 1]⟩
abbrev S_ : Shape := ⟨0, ![]⟩
abbrev S800000x96 : Shape := ⟨2, ![800000, 96]⟩
abbrev S1x128 : Shape := ⟨2, ![1, 128]⟩
abbrev S50000x128 : Shape := ⟨2, ![50000, 128]⟩
abbrev S2000x96 : Shape := ⟨2, ![2000, 96]⟩
abbrev S2000x128 : Shape := ⟨2, ![2000, 128]⟩
abbrev S96x128 : Shape := ⟨2, ![96, 128]⟩
abbrev S800000x128 : Shape := ⟨2, ![800000, 128]⟩
abbrev S1x64 : Shape := ⟨2, ![1, 64]⟩
abbrev S50000x64 : Shape := ⟨2, ![50000, 64]⟩
abbrev S2000x64 : Shape := ⟨2, ![2000, 64]⟩
abbrev S128x64 : Shape := ⟨2, ![128, 64]⟩

abbrev nBuf : Space → Nat
  | .hbm => 49
  | .vmem => 18
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S128x96, .f32⟩
  | .hbm, ⟨3, _⟩ => ⟨S128, .f32⟩
  | .hbm, ⟨4, _⟩ => ⟨S128x96, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S800000, .i1⟩
  | .hbm, ⟨13, _⟩ => ⟨S800000, .f32⟩
  | .hbm, ⟨14, _⟩ => ⟨S800000x1, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x96, .f32⟩
  | .hbm, ⟨24, _⟩ => ⟨S800000x96, .f32⟩
  | .hbm, ⟨25, _⟩ => ⟨S800000x96, .f32⟩
  | .hbm, ⟨26, _⟩ => ⟨S_, .f32⟩
  | .hbm, ⟨27, _⟩ => ⟨S50000x96, .f32⟩
  | .hbm, ⟨28, _⟩ => ⟨S800000x1, .i32⟩
  | .hbm, ⟨29, _⟩ => ⟨S50000x96, .f32⟩
  | .hbm, ⟨30, _⟩ => ⟨S1x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S800000x128, .f32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S1x64, .f32⟩
  | .hbm, ⟨48, _⟩ => ⟨S50000x64, .f32⟩
  | .local _ .vmem, ⟨0, _⟩ => ⟨S2000x96, .f32⟩
  | .local _ .vmem, ⟨1, _⟩ => ⟨S2000x96, .f32⟩
  | .local _ .vmem, ⟨2, _⟩ => ⟨S2000x96, .f32⟩
  | .local _ .vmem, ⟨3, _⟩ => ⟨S2000x96, .f32⟩
  | .local _ .vmem, ⟨4, _⟩ => ⟨S128x96, .f32⟩
  | .local _ .vmem, ⟨5, _⟩ => ⟨S128x96, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S64x128, .f32⟩
  | .local _ .vmem, ⟨14, _⟩ => ⟨S64x128, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  shapeCasts_S128_S1x128 : S128.ShapeCasts S1x128
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  transposes_S128x96_p1_0_S96x128 : S128x96.Transposes [1, 0] S96x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S64_S1x64 : S64.ShapeCasts S1x64
  shapeCasts_S2000x128_S2000x128 : S2000x128.ShapeCasts S2000x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x128_S2000x128_1_0_0_1_n_n_wf : DotDims.WF S2000x96 S96x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x96.size a ≤ S50000x96.size a
  hwx0_1 : ∀ i : grid0.Coords, EltTy.bits .f32 = 32 ∨ (Rect.block (s := S50000x96) S2000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x96.size a ≤ S128x96.size a
  hwx0_2 : ∀ i : grid0.Coords, EltTy.bits .f32 = 32 ∨ (Rect.block (s := S128x96) S128x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x96.size a ≤ S128x96.size a
  hwx0_3 : ∀ i : grid0.Coords, EltTy.bits .f32 = 32 ∨ (Rect.block (s := S128x96) S128x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x128_S2000x128_1_0_0_1_n_n : DotDims S2000x96 S96x128 S2000x128 where
  lhsContracting := [1]
  rhsContracting := [0]
  lhsNonContracting := [0]
  rhsNonContracting := [1]
  lhsBatch := []
  rhsBatch := []
  wf := dot_S2000x96_S96x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v18) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S128x96 : Shape := ⟨2, ![128, 96]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S800000x1 : Shape := ⟨2, ![800000, 1]⟩
abbrev S_ : Shape := ⟨0, ![]⟩
abbrev S800000x96 : Shape := ⟨2, ![800000, 96]⟩
abbrev S96x128 : Shape := ⟨2, ![96, 128]⟩
abbrev S50000x128 : Shape := ⟨2, ![50000, 128]⟩
abbrev S1x128 : Shape := ⟨2, ![1, 128]⟩
abbrev S800000x128 : Shape := ⟨2, ![800000, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S128x96, .f32⟩
  | .hbm, ⟨3, _⟩ => ⟨S128, .f32⟩
  | .hbm, ⟨4, _⟩ => ⟨S128x96, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S800000, .i1⟩
  | .hbm, ⟨13, _⟩ => ⟨S800000, .f32⟩
  | .hbm, ⟨14, _⟩ => ⟨S800000x1, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x96, .f32⟩
  | .hbm, ⟨24, _⟩ => ⟨S800000x96, .f32⟩
  | .hbm, ⟨25, _⟩ => ⟨S800000x96, .f32⟩
  | .hbm, ⟨26, _⟩ => ⟨S_, .f32⟩
  | .hbm, ⟨27, _⟩ => ⟨S50000x96, .f32⟩
  | .hbm, ⟨28, _⟩ => ⟨S800000x1, .i32⟩
  | .hbm, ⟨29, _⟩ => ⟨S50000x96, .f32⟩
  | .hbm, ⟨30, _⟩ => ⟨S96x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S96x128, .f32⟩
  | .hbm, ⟨36, _⟩ => ⟨S50000x128, .f32⟩
  | .hbm, ⟨37, _⟩ => ⟨S50000x128, .f32⟩
  | .hbm, ⟨38, _⟩ => ⟨S_, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S128x64, .f32⟩
  | .hbm, ⟨57, _⟩ => ⟨S50000x64, .f32⟩
  | .hbm, ⟨58, _⟩ => ⟨S1x64, .f32⟩
  | .hbm, ⟨59, _⟩ => ⟨S50000x64, .f32⟩
  | .hbm, ⟨60, _⟩ => ⟨S50000x64, .f32⟩
  | .hbm, ⟨61, _⟩ => ⟨S128x64, .f32⟩
  | .hbm, ⟨62, _⟩ => ⟨S50000x64, .f32⟩
  | .hbm, ⟨63, _⟩ => ⟨S50000x64, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_cst : Ref sig .tc := ⟨.hbm, 38, rfl⟩
abbrev main_call0_v0 : Ref sig .tc := ⟨.hbm, 39, rfl⟩
abbrev main_v27 : Ref sig .tc := ⟨.hbm, 40, rfl⟩
abbrev main_c_1 : Ref sig .tc := ⟨.hbm, 41, rfl⟩
abbrev main_v28 : Ref sig .tc := ⟨.hbm, 42, rfl⟩
abbrev main_v29 : Ref sig .tc := ⟨.hbm, 43, rfl⟩
abbrev main_c_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  transposes_S128x96_S96x128_1_0 : S128x96.Transposes [1, 0] S96x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S800000x1_S800000x128_0_1 : S800000x1.BroadcastsInDim S800000x128 (![0, 1] : Fin 2 → Fin S800000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x128_S50000x128_1_0_0_1_n_n_wf : DotDims.WF S50000x96 S96x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.Dense.lean ====
/-
  One graph-convolution layer's dense part, as a function of whole arrays.

  For node features `x` (N rows of Fi features), the neighbour sums `agg` of the same shape, two weight matrices
  `wrel`, `wroot` (Fo rows of Fi) and a bias row `b` (1 × Fo), entry (p, q) of the layer's output is

      Σ_k agg (p, k) · wrel (q, k)  +  Σ_k x (p, k) · wroot (q, k)  +  b (0, q)

  on the extended reals: both products contract the feature axis against the weights' SECOND axis (a product with
  the transposed weights), and nothing of a tiling, a float format or a summation order is left in it. `layerRelu`
  is the same followed by the maximum with the zero word's value.
-/
import Idealize.ShloMosaic.PureOps.Ideal
import Idealize.ShloMosaic.Lib.ValueIdx

noncomputable section

namespace Cert.Dense

open Idealize.ShloMosaic Idealize.ShloMosaic.ValueIdx

/-- Entry (p, q) of `agg · wrelᵀ + x · wrootᵀ + b`. -/
def entry {N Fi Fo : Nat} (agg x : FVec Ideal ⟨2, ![N, Fi]⟩ .f32) (wrel wroot : FVec Ideal ⟨2, ![Fo, Fi]⟩ .f32)
    (b : FVec Ideal ⟨2, ![1, Fo]⟩ .f32) (p : Fin N) (q : Fin Fo) : EReal :=
  ((∑ k : Fin Fi, agg (ix2 p k) * wrel (ix2 q k)) + (∑ k : Fin Fi, x (ix2 p k) * wroot (ix2 q k))) + b (ix2 0 q)

/-- The layer without a nonlinearity: the whole N × Fo array. -/
def layer {N Fi Fo : Nat} (agg x : FVec Ideal ⟨2, ![N, Fi]⟩ .f32) (wrel wroot : FVec Ideal ⟨2, ![Fo, Fi]⟩ .f32)
    (b : FVec Ideal ⟨2, ![1, Fo]⟩ .f32) : FVec Ideal ⟨2, ![N, Fo]⟩ .f32 :=
  fun i => entry agg x wrel wroot b (i 0) (i 1)

/-- The layer followed by the rectifier: each entry's maximum with zero (the zero word's value). -/
def layerRelu {N Fi Fo : Nat} (agg x : FVec Ideal ⟨2, ![N, Fi]⟩ .f32) (wrel wroot : FVec Ideal ⟨2, ![Fo, Fi]⟩ .f32)
    (b : FVec Ideal ⟨2, ![1, Fo]⟩ .f32) : FVec Ideal ⟨2, ![N, Fo]⟩ .f32 :=
  fun i => max (entry agg x wrel wroot b (i 0) (i 1)) (Ideal.ofBits .f32 0x00000000#32)

theorem layer_apply {N Fi Fo : Nat} (agg x : FVec Ideal ⟨2, ![N, Fi]⟩ .f32) (wrel wroot : FVec Ideal ⟨2, ![Fo, Fi]⟩ .f32)
    (b : FVec Ideal ⟨2, ![1, Fo]⟩ .f32) (p : Fin N) (q : Fin Fo) :
    layer agg x wrel wroot b (ix2 p q) = entry agg x wrel wroot b p q := rfl

theorem layerRelu_apply {N Fi Fo : Nat} (agg x : FVec Ideal ⟨2, ![N, Fi]⟩ .f32) (wrel wroot : FVec Ideal ⟨2, ![Fo, Fi]⟩ .f32)
    (b : FVec Ideal ⟨2, ![1, Fo]⟩ .f32) (p : Fin N) (q : Fin Fo) :
    layerRelu agg x wrel wroot b (ix2 p q) = max (entry agg x wrel wroot b p q) (Ideal.ofBits .f32 0x00000000#32) := rfl

end Cert.Dense

end
-- ==== Proof.Layer1Body.lean ====
/-
  The first layer's kernel body at an entry.

  The body loads a 2000-row block of the neighbour sums and of the features, the two 128 × 96 weight matrices and
  the 1 × 128 bias row, rounds the four matrix operands to bf16 (the identity on the extended reals), multiplies
  each block by its TRANSPOSED weights into a zero accumulator, adds the two products, then the bias row broadcast
  down the rows, and takes the maximum with zero. At entry (p, q) of the block that is
  `max (Σ_k agg (p, k) · wrel (q, k) + Σ_k x (p, k) · wroot (q, k) + b (0, q)) 0`: `Dense.entry` of the loaded blocks.
-/
import proofs.«120070_j68865505624262_1_alg».proof.Proof.Gen.KernelIdeal.Skeleton
import proofs.«120070_j68865505624262_1_alg».proof.Proof.LibPlainDot
import proofs.«120070_j68865505624262_1_alg».proof.Proof.Dense
import Idealize.ShloMosaic.Lib.Pipeline.Value
import Idealize.ShloMosaic.Lib.ValueIdx

noncomputable section

namespace Cert.KernelIdeal.Layer1

open Cert.KernelIdeal Cert.KernelIdeal.Gen Idealize.ShloMosaic Idealize.ShloMosaic.ValueIdx

/-- The transposed weights at (k, q) are the weights at (q, k). -/
theorem transpose_w (w : FVec Ideal S128x96 .bf16) (k : Fin 96) (q : Fin 128) :
    transpose S96x128 [1, 0] w transposes_S128x96_p1_0_S96x128 (ix2 k q) = w (ix2 q k) :=
  transpose_apply [1, 0] w transposes_S128x96_p1_0_S96x128 (ix2 k q) (ix2 q k) (fun b => match b with
    | ⟨0, _⟩ => rfl
    | ⟨1, _⟩ => rfl)

/-- A block times the transposed weights, both rounded to bf16, into the zero accumulator: at (p, q) the sum over
    the feature axis of block (p, k) · weights (q, k). -/
theorem block_times_weightsT (a : FVec Ideal S2000x96 .f32) (w : FVec Ideal S128x96 .f32) (p : Fin 2000) (q : Fin 128) :
    matmul dot_S2000x96_S96x128_S2000x128_1_0_0_1_n_n none (truncf .bf16 a bitsLt_bf16_f32)
        (transpose S96x128 [1, 0] (truncf .bf16 w bitsLt_bf16_f32) transposes_S128x96_p1_0_S96x128)
        (constant S2000x128 .f32 0x00000000#32) (ix2 p q)
      = ∑ k : Fin 96, a (ix2 p k) * w (ix2 q k) :=
  (PlainDot.matmul_zero_apply 2000 96 128 (truncf .bf16 a bitsLt_bf16_f32)
      (transpose S96x128 [1, 0] (truncf .bf16 w bitsLt_bf16_f32) transposes_S128x96_p1_0_S96x128) p q).trans
    (Finset.sum_congr rfl fun k _ => by rw [transpose_w]; rfl)

/-- The bias row broadcast down the block's rows, at (p, q), is the row's entry q. -/
theorem bias_row (b : FVec Ideal S1x128 .f32) (p : Fin 2000) (q : Fin 128) :
    broadcastTo S2000x128 b broadcasts_S1x128_S2000x128 (ix2 p q) = b (ix2 0 q) :=
  broadcastTo_apply b broadcasts_S1x128_S2000x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- The body's stored value at entry (p, q) of the block. -/
theorem body_entry (v0 v3 : Vec Ideal S2000x96 .f32) (v5 v7 : Vec Ideal S128x96 .f32) (v14 : Vec Ideal S1x128 .f32)
    (p : Fin 2000) (q : Fin 128) :
    k0_pay1 (F := Ideal) v0 v3 v5 v7 v14 (ix2 p q)
      = max (Dense.entry (N := 2000) (Fi := 96) (Fo := 128) v0 v3 v5 v7 v14 p q) (Ideal.ofBits .f32 0x00000000#32) := by
  unfold k0_pay1 Dense.entry
  simp only [shapeCast_self]
  exact congrArg₂ max
    (congrArg₂ (· + ·)
      (congrArg₂ (· + ·) (block_times_weightsT v0 v5 p q) (block_times_weightsT v3 v7 p q))
      (bias_row v14 p q))
    rfl

end Cert.KernelIdeal.Layer1

end
-- ==== Proof.Layer1Array.lean ====
/-
  The first layer's region, from blocks to the whole array.

  The grid has 25 points; point t works on rows 2000·t … 2000·t + 1999 of the neighbour sums and of the features,
  sees both weight matrices and the bias row whole, and writes rows 2000·t … 2000·t + 1999 of the output. So what
  point t writes back is block t of ONE function of the arrays as the region finds them — the dense layer with its
  rectifier (`Dense.layerRelu`) — the 25 blocks cover the output's 50000 rows, and the output array after the
  region is that function.
-/
import proofs.«120070_j68865505624262_1_alg».proof.Proof.Gen.KernelIdeal.Frame
import proofs.«120070_j68865505624262_1_alg».proof.Proof.Layer1Body
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)

-- the buffers' contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The printed index maps, decided over the grid: the two row-blocked inputs and the output are at block row t,
    the weights and the bias at their only block. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer's output as one function of the arrays the region finds. -/
abbrev hidden (c : Dev nD) : FVec Ideal S50000x128 .f32 :=
  Dense.layerRelu (N := 50000) (Fi := 96) (Fo := 128) (V c main_v18) (V c main_arg0) (V c main_arg2) (V c main_arg4) (V c main_v19)

/-! ## The input blocks at a point, read off the arrays -/

/-- Entry (p, k) of the neighbour sums' block at point t is row 2000·t + p of the array. -/
theorem agg_block (c : Dev nD) (t : Fin cfg0.N) (p : Fin 2000) (k : Fin 96) (i : S50000x96.Idx)
    (h0 : (i 0).val = 2000 * t.val + p.val) (h1 : (i 1).val = k.val) :
    iblk0 V c 0 t (ix2 p k) = V c main_v18 i := by
  obtain ⟨e, e', -⟩ := index_maps t
  show V c main_v18 (((cfg0.win 0).blk t).view.emb (ix2 p k)) = V c main_v18 i
  have he : ((cfg0.win 0).blk t).view.emb (ix2 p k) = i := by
    funext a; apply Fin.ext
    match a with
    | ⟨0, _⟩ => show win0_0.index t (0 : Fin 2) * 2000 + 1 * p.val = (i 0).val; rw [e, h0]; omega
    | ⟨1, _⟩ => show win0_0.index t (1 : Fin 2) * 96 + 1 * k.val = (i 1).val; rw [e', h1]; omega
  rw [he]

/-- The same for the features' block. -/
theorem x_block (c : Dev nD) (t : Fin cfg0.N) (p : Fin 2000) (k : Fin 96) (i : S50000x96.Idx)
    (h0 : (i 0).val = 2000 * t.val + p.val) (h1 : (i 1).val = k.val) :
    iblk0 V c 1 t (ix2 p k) = V c main_arg0 i := by
  obtain ⟨-, -, e, e', -⟩ := index_maps t
  show V c main_arg0 (((cfg0.win 1).blk t).view.emb (ix2 p k)) = V c main_arg0 i
  have he : ((cfg0.win 1).blk t).view.emb (ix2 p k) = i := by
    funext a; apply Fin.ext
    match a with
    | ⟨0, _⟩ => show win0_1.index t (0 : Fin 2) * 2000 + 1 * p.val = (i 0).val; rw [e, h0]; omega
    | ⟨1, _⟩ => show win0_1.index t (1 : Fin 2) * 96 + 1 * k.val = (i 1).val; rw [e', h1]; omega
  rw [he]

/-- The neighbour weights' block is the whole matrix, at every point. -/
theorem wrel_block (c : Dev nD) (t : Fin cfg0.N) : (iblk0 V c 2 t : Vec Ideal S128x96 .f32) = V c main_arg2 := by
  obtain ⟨-, -, -, -, e, e', -⟩ := index_maps t
  funext y
  show V c main_arg2 (((cfg0.win 2).blk t).view.emb y) = V c main_arg2 y
  have he : ((cfg0.win 2).blk t).view.emb y = y := by
    funext a; apply Fin.ext
    match a with
    | ⟨0, _⟩ => show win0_2.index t (0 : Fin 2) * 128 + 1 * (y 0).val = (y 0).val; rw [e]; omega
    | ⟨1, _⟩ => show win0_2.index t (1 : Fin 2) * 96 + 1 * (y 1).val = (y 1).val; rw [e']; omega
  rw [he]

/-- The root weights' block is the whole matrix, at every point. -/
theorem wroot_block (c : Dev nD) (t : Fin cfg0.N) : (iblk0 V c 3 t : Vec Ideal S128x96 .f32) = V c main_arg4 := by
  obtain ⟨-, -, -, -, -, -, e, e', -⟩ := index_maps t
  funext y
  show V c main_arg4 (((cfg0.win 3).blk t).view.emb y) = V c main_arg4 y
  have he : ((cfg0.win 3).blk t).view.emb y = y := by
    funext a; apply Fin.ext
    match a with
    | ⟨0, _⟩ => show win0_3.index t (0 : Fin 2) * 128 + 1 * (y 0).val = (y 0).val; rw [e]; omega
    | ⟨1, _⟩ => show win0_3.index t (1 : Fin 2) * 96 + 1 * (y 1).val = (y 1).val; rw [e']; omega
  rw [he]

/-- The bias row's block is the whole row, at every point. -/
theorem bias_block (c : Dev nD) (t : Fin cfg0.N) : (iblk0 V c 4 t : Vec Ideal S1x128 .f32) = V c main_v19 := by
  obtain ⟨-, -, -, -, -, -, -, -, e, e', -⟩ := index_maps t
  funext y
  show V c main_v19 (((cfg0.win 4).blk t).view.emb y) = V c main_v19 y
  have he : ((cfg0.win 4).blk t).view.emb y = y := by
    funext a; apply Fin.ext
    match a with
    | ⟨0, _⟩ => show win0_4.index t (0 : Fin 2) * 1 + 1 * (y 0).val = (y 0).val; rw [e]; omega
    | ⟨1, _⟩ => show win0_4.index t (1 : Fin 2) * 128 + 1 * (y 1).val = (y 1).val; rw [e']; omega
  rw [he]

/-! ## One block of the output -/

/-- The body's stored value at an entry of the block, when the row-blocked inputs are rows 2000·r … of two arrays:
    the layer's output at the corresponding row of the whole array. -/
theorem block_value (x0 x1 : Vec Ideal S2000x96 .f32) (x2 x3 : Vec Ideal S128x96 .f32) (x4 : Vec Ideal S1x128 .f32)
    (A X : FVec Ideal S50000x96 .f32) (W1 W2 : FVec Ideal S128x96 .f32) (B : FVec Ideal S1x128 .f32) (r : Nat)
    (hA : ∀ (p : Fin 2000) (k : Fin 96) (i : S50000x96.Idx), (i 0).val = 2000 * r + p.val → (i 1).val = k.val → x0 (ix2 p k) = A i)
    (hX : ∀ (p : Fin 2000) (k : Fin 96) (i : S50000x96.Idx), (i 0).val = 2000 * r + p.val → (i 1).val = k.val → x1 (ix2 p k) = X i)
    (h2 : x2 = W1) (h3 : x3 = W2) (h4 : x4 = B)
    (y : S2000x128.Idx) (i : S50000x128.Idx) (hi0 : (i 0).val = 2000 * r + (y 0).val) (hi1 : (i 1).val = (y 1).val) :
    k0_pay1 (F := Ideal) x0 x1 x2 x3 x4 y = Dense.layerRelu (N := 50000) (Fi := 96) (Fo := 128) A X W1 W2 B i := by
  subst h2 h3 h4
  obtain ⟨p, q, rfl⟩ : ∃ (p : Fin 2000) (q : Fin 128), y = ix2 p q := ⟨y 0, y 1, eq_ix2 y⟩
  have hr : 2000 * r + p.val < 50000 := by have := idx2_lt0 i; omega
  obtain rfl : i = ix2 ⟨2000 * r + p.val, hr⟩ q := by
    funext a; apply Fin.ext
    match a with
    | ⟨0, _⟩ => exact hi0
    | ⟨1, _⟩ => exact hi1
  rw [body_entry, Dense.layerRelu_apply]
  unfold Dense.entry
  have h0 : ∀ k : Fin 96, x0 (ix2 p k) = A (ix2 ⟨2000 * r + p.val, hr⟩ k) := fun k => hA p k _ rfl rfl
  have h1 : ∀ k : Fin 96, x1 (ix2 p k) = X (ix2 ⟨2000 * r + p.val, hr⟩ k) := fun k => hX p k _ rfl rfl
  simp only [h0, h1]

/-- What point t writes back is block t of the layer's output. -/
theorem flushed_eq (c : Dev nD) (t : Fin cfg0.N) :
    (dat0 V c).flushed 5 t = ((cfg0.win 5).blk t).view.read (Elt Ideal) (hidden V c) := by
  show (cfg0.win 5).cut (grid0.coords t) ((dat0 V c).after 5 t) = _
  rw [after0_5]
  unfold out0_5
  rw [View.canon_unit_zero origin]
  simp only [View.ld_unit_zero (S := S2000x96) origin, View.ld_unit_zero (S := S128x96) origin, View.ld_unit_zero (S := S1x128) origin]
  obtain ⟨-, -, -, -, -, -, -, -, -, -, e, e'⟩ := index_maps t
  funext j
  show k0_pay1 (F := Ideal) (iblk0 V c 0 t) (iblk0 V c 1 t) (iblk0 V c 2 t) (iblk0 V c 3 t) (iblk0 V c 4 t) j
    = hidden V c (((cfg0.win 5).blk t).view.emb j)
  refine block_value (iblk0 V c 0 t) (iblk0 V c 1 t) (iblk0 V c 2 t) (iblk0 V c 3 t) (iblk0 V c 4 t)
    (V c main_v18) (V c main_arg0) (V c main_arg2) (V c main_arg4) (V c main_v19) t.val
    (agg_block V c t) (x_block V c t) (wrel_block V c t) (wroot_block V c t) (bias_block V c t) j _ ?_ ?_
  · show win0_5.index t (0 : Fin 2) * 2000 + 1 * (j 0).val = 2000 * t.val + (j 0).val; rw [e]; omega
  · show win0_5.index t (1 : Fin 2) * 128 + 1 * (j 1).val = (j 1).val; rw [e']; omega

/-! ## The blocks cover the array -/

/-- An index of the output is in point t's block iff each coordinate is in the block's range on its axis. -/
theorem mem_block (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v20).slice (win0_5.rect t)).set ↔ _
  rw [View.set_slice_whole, Rect.mem_set_unit]
  exact Iff.rfl

/-- Row r of the output is in the block of point r / 2000. -/
theorem covered (i : S50000x128.Idx) :
    ∃ t : Fin cfg0.N, (cfg0.win 5).flush t = true ∧ i ∈ ((cfg0.win 5).blk t).view.set := by
  have hi0 : (i 0).val < 50000 := idx2_lt0 i
  have hi1 : (i 1).val < 128 := idx2_lt1 i
  have hN : (i 0).val / 2000 < cfg0.N := by rw [show cfg0.N = 25 from N_0]; omega
  refine ⟨⟨(i 0).val / 2000, hN⟩, flush0_5 _, ?_⟩
  rw [mem_block]
  obtain ⟨-, -, -, -, -, -, -, -, -, -, e, e'⟩ := index_maps ⟨(i 0).val / 2000, hN⟩
  intro a
  match a with
  | ⟨0, _⟩ =>
    show win0_5.index ⟨(i 0).val / 2000, hN⟩ (0 : Fin 2) * 2000 ≤ (i 0).val ∧ (i 0).val < win0_5.index ⟨(i 0).val / 2000, hN⟩ (0 : Fin 2) * 2000 + 2000
    rw [e]; show (i 0).val / 2000 * 2000 ≤ (i 0).val ∧ (i 0).val < (i 0).val / 2000 * 2000 + 2000; omega
  | ⟨1, _⟩ =>
    show win0_5.index ⟨(i 0).val / 2000, hN⟩ (1 : Fin 2) * 128 ≤ (i 1).val ∧ (i 1).val < win0_5.index ⟨(i 0).val / 2000, hN⟩ (1 : Fin 2) * 128 + 128
    rw [e']; omega

/-- The output array after the region is the layer's output of the arrays the region found. -/
theorem array_eq (c : Dev nD) : (dat0 V c).arrAt 5 cfg0.N = hidden V c :=
  (dat0 V c).arrAt_eq_of_cover 5 (hidden V c) (fun t _ => flushed_eq V c t) (covered)

end Cert.KernelIdeal.Layer1

end
-- ==== Proof.Layer2Body.lean ====
/-
  The second layer's kernel body at an entry.

  The body loads a 2000-row block of the second neighbour sums and of the first layer's output, the two 64 × 128
  weight matrices and the 1 × 64 bias row, rounds the four matrix operands to bf16 (the identity on the extended
  reals), multiplies each block by its TRANSPOSED weights into a zero accumulator, adds the two products and then
  the bias row broadcast down the rows; there is no rectifier. At entry (p, q) of the block that is
  `Σ_k agg (p, k) · wrel (q, k) + Σ_k h (p, k) · wroot (q, k) + b (0, q)`: `Dense.entry` of the loaded blocks.
-/
import proofs.«120070_j68865505624262_1_alg».proof.Proof.Gen.KernelIdeal.Skeleton
import proofs.«120070_j68865505624262_1_alg».proof.Proof.LibPlainDot
import proofs.«120070_j68865505624262_1_alg».proof.Proof.Dense
import Idealize.ShloMosaic.Lib.Pipeline.Value
import Idealize.ShloMosaic.Lib.ValueIdx

noncomputable section

namespace Cert.KernelIdeal.Layer2

open Cert.KernelIdeal Cert.KernelIdeal.Gen Idealize.ShloMosaic Idealize.ShloMosaic.ValueIdx

/-- The transposed weights at (k, q) are the weights at (q, k). -/
theorem transpose_w (w : FVec Ideal S64x128 .bf16) (k : Fin 128) (q : Fin 64) :
    transpose S128x64 [1, 0] w transposes_S64x128_p1_0_S128x64 (ix2 k q) = w (ix2 q k) :=
  transpose_apply [1, 0] w transposes_S64x128_p1_0_S128x64 (ix2 k q) (ix2 q k) (fun b => match b with
    | ⟨0, _⟩ => rfl
    | ⟨1, _⟩ => rfl)

/-- A block times the transposed weights, both rounded to bf16, into the zero accumulator: at (p, q) the sum over
    the hidden axis of block (p, k) · weights (q, k). -/
theorem block_times_weightsT (a : FVec Ideal S2000x128 .f32) (w : FVec Ideal S64x128 .f32) (p : Fin 2000) (q : Fin 64) :
    matmul dot_S2000x128_S128x64_S2000x64_1_0_0_1_n_n none (truncf .bf16 a bitsLt_bf16_f32)
        (transpose S128x64 [1, 0] (truncf .bf16 w bitsLt_bf16_f32) transposes_S64x128_p1_0_S128x64)
        (constant S2000x64 .f32 0x00000000#32) (ix2 p q)
      = ∑ k : Fin 128, a (ix2 p k) * w (ix2 q k) :=
  (PlainDot.matmul_zero_apply 2000 128 64 (truncf .bf16 a bitsLt_bf16_f32)
      (transpose S128x64 [1, 0] (truncf .bf16 w bitsLt_bf16_f32) transposes_S64x128_p1_0_S128x64) p q).trans
    (Finset.sum_congr rfl fun k _ => by rw [transpose_w]; rfl)

/-- The bias row broadcast down the block's rows, at (p, q), is the row's entry q. -/
theorem bias_row (b : FVec Ideal S1x64 .f32) (p : Fin 2000) (q : Fin 64) :
    broadcastTo S2000x64 b broadcasts_S1x64_S2000x64 (ix2 p q) = b (ix2 0 q) :=
  broadcastTo_apply b broadcasts_S1x64_S2000x64 (ix2 p q) (ix2 0 q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-- The body's stored value at entry (p, q) of the block. -/
theorem body_entry (v0 v3 : Vec Ideal S2000x128 .f32) (v6 v8 : Vec Ideal S64x128 .f32) (v15 : Vec Ideal S1x64 .f32)
    (p : Fin 2000) (q : Fin 64) :
    k1_pay1 (F := Ideal) v0 v3 v6 v8 v15 (ix2 p q)
      = Dense.entry (N := 2000) (Fi := 128) (Fo := 64) v0 v3 v6 v8 v15 p q := by
  unfold k1_pay1 Dense.entry
  simp only [shapeCast_self]
  exact congrArg₂ (· + ·)
    (congrArg₂ (· + ·) (block_times_weightsT v0 v6 p q) (block_times_weightsT v3 v8 p q))
    (bias_row v15 p q)

end Cert.KernelIdeal.Layer2

end
-- ==== Proof.Layer2Array.lean ====
/-
  The second layer's region, from blocks to the whole array.

  The grid has 25 points; point t works on rows 2000·t … 2000·t + 1999 of the second neighbour sums and of the first
  layer's output, sees both weight matrices and the bias row whole, and writes rows 2000·t … 2000·t + 1999 of the
  result. So what point t writes back is block t of ONE function of the arrays as the region finds them — the dense
  layer without a rectifier (`Dense.layer`) — the 25 blocks cover the result's 50000 rows, and the result array
  after the region is that function.
-/
import proofs.«120070_j68865505624262_1_alg».proof.Proof.Gen.KernelIdeal.Frame
import proofs.«120070_j68865505624262_1_alg».proof.Proof.Layer2Body
import Idealize.ShloMosaic.Lib.Pipeline.Value

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)

-- the buffers' contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The printed index maps, decided over the grid: the two row-blocked inputs and the output are at block row t,
    the weights and the bias at their only block. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer's result as one function of the arrays the region finds. -/
abbrev result (c : Dev nD) : FVec Ideal S50000x64 .f32 :=
  Dense.layer (N := 50000) (Fi := 128) (Fo := 64) (V c main_v32) (V c main_v20) (V c main_arg5) (V c main_arg7) (V c main_v33)

/-! ## The input blocks at a point, read off the arrays -/

/-- Entry (p, k) of the neighbour sums' block at point t is row 2000·t + p of the array. -/
theorem agg_block (c : Dev nD) (t : Fin cfg1.N) (p : Fin 2000) (k : Fin 128) (i : S50000x128.Idx)
    (h0 : (i 0).val = 2000 * t.val + p.val) (h1 : (i 1).val = k.val) :
    iblk1 V c 0 t (ix2 p k) = V c main_v32 i := by
  obtain ⟨e, e', -⟩ := index_maps t
  show V c main_v32 (((cfg1.win 0).blk t).view.emb (ix2 p k)) = V c main_v32 i
  have he : ((cfg1.win 0).blk t).view.emb (ix2 p k) = i := by
    funext a; apply Fin.ext
    match a with
    | ⟨0, _⟩ => show win1_0.index t (0 : Fin 2) * 2000 + 1 * p.val = (i 0).val; rw [e, h0]; omega
    | ⟨1, _⟩ => show win1_0.index t (1 : Fin 2) * 128 + 1 * k.val = (i 1).val; rw [e', h1]; omega
  rw [he]

/-- The same for the block of the first layer's output. -/
theorem h_block (c : Dev nD) (t : Fin cfg1.N) (p : Fin 2000) (k : Fin 128) (i : S50000x128.Idx)
    (h0 : (i 0).val = 2000 * t.val + p.val) (h1 : (i 1).val = k.val) :
    iblk1 V c 1 t (ix2 p k) = V c main_v20 i := by
  obtain ⟨-, -, e, e', -⟩ := index_maps t
  show V c main_v20 (((cfg1.win 1).blk t).view.emb (ix2 p k)) = V c main_v20 i
  have he : ((cfg1.win 1).blk t).view.emb (ix2 p k) = i := by
    funext a; apply Fin.ext
    match a with
    | ⟨0, _⟩ => show win1_1.index t (0 : Fin 2) * 2000 + 1 * p.val = (i 0).val; rw [e, h0]; omega
    | ⟨1, _⟩ => show win1_1.index t (1 : Fin 2) * 128 + 1 * k.val = (i 1).val; rw [e', h1]; omega
  rw [he]

/-- The neighbour weights' block is the whole matrix, at every point. -/
theorem wrel_block (c : Dev nD) (t : Fin cfg1.N) : (iblk1 V c 2 t : Vec Ideal S64x128 .f32) = V c main_arg5 := by
  obtain ⟨-, -, -, -, e, e', -⟩ := index_maps t
  funext y
  show V c main_arg5 (((cfg1.win 2).blk t).view.emb y) = V c main_arg5 y
  have he : ((cfg1.win 2).blk t).view.emb y = y := by
    funext a; apply Fin.ext
    match a with
    | ⟨0, _⟩ => show win1_2.index t (0 : Fin 2) * 64 + 1 * (y 0).val = (y 0).val; rw [e]; omega
    | ⟨1, _⟩ => show win1_2.index t (1 : Fin 2) * 128 + 1 * (y 1).val = (y 1).val; rw [e']; omega
  rw [he]

/-- The root weights' block is the whole matrix, at every point. -/
theorem wroot_block (c : Dev nD) (t : Fin cfg1.N) : (iblk1 V c 3 t : Vec Ideal S64x128 .f32) = V c main_arg7 := by
  obtain ⟨-, -, -, -, -, -, e, e', -⟩ := index_maps t
  funext y
  show V c main_arg7 (((cfg1.win 3).blk t).view.emb y) = V c main_arg7 y
  have he : ((cfg1.win 3).blk t).view.emb y = y := by
    funext a; apply Fin.ext
    match a with
    | ⟨0, _⟩ => show win1_3.index t (0 : Fin 2) * 64 + 1 * (y 0).val = (y 0).val; rw [e]; omega
    | ⟨1, _⟩ => show win1_3.index t (1 : Fin 2) * 128 + 1 * (y 1).val = (y 1).val; rw [e']; omega
  rw [he]

/-- The bias row's block is the whole row, at every point. -/
theorem bias_block (c : Dev nD) (t : Fin cfg1.N) : (iblk1 V c 4 t : Vec Ideal S1x64 .f32) = V c main_v33 := by
  obtain ⟨-, -, -, -, -, -, -, -, e, e', -⟩ := index_maps t
  funext y
  show V c main_v33 (((cfg1.win 4).blk t).view.emb y) = V c main_v33 y
  have he : ((cfg1.win 4).blk t).view.emb y = y := by
    funext a; apply Fin.ext
    match a with
    | ⟨0, _⟩ => show win1_4.index t (0 : Fin 2) * 1 + 1 * (y 0).val = (y 0).val; rw [e]; omega
    | ⟨1, _⟩ => show win1_4.index t (1 : Fin 2) * 64 + 1 * (y 1).val = (y 1).val; rw [e']; omega
  rw [he]

/-! ## One block of the result -/

/-- The body's stored value at an entry of the block, when the row-blocked inputs are rows 2000·r … of two arrays:
    the layer's result at the corresponding row of the whole array. -/
theorem block_value (x0 x1 : Vec Ideal S2000x128 .f32) (x2 x3 : Vec Ideal S64x128 .f32) (x4 : Vec Ideal S1x64 .f32)
    (A H : FVec Ideal S50000x128 .f32) (W1 W2 : FVec Ideal S64x128 .f32) (B : FVec Ideal S1x64 .f32) (r : Nat)
    (hA : ∀ (p : Fin 2000) (k : Fin 128) (i : S50000x128.Idx), (i 0).val = 2000 * r + p.val → (i 1).val = k.val → x0 (ix2 p k) = A i)
    (hH : ∀ (p : Fin 2000) (k : Fin 128) (i : S50000x128.Idx), (i 0).val = 2000 * r + p.val → (i 1).val = k.val → x1 (ix2 p k) = H i)
    (h2 : x2 = W1) (h3 : x3 = W2) (h4 : x4 = B)
    (y : S2000x64.Idx) (i : S50000x64.Idx) (hi0 : (i 0).val = 2000 * r + (y 0).val) (hi1 : (i 1).val = (y 1).val) :
    k1_pay1 (F := Ideal) x0 x1 x2 x3 x4 y = Dense.layer (N := 50000) (Fi := 128) (Fo := 64) A H W1 W2 B i := by
  subst h2 h3 h4
  obtain ⟨p, q, rfl⟩ : ∃ (p : Fin 2000) (q : Fin 64), y = ix2 p q := ⟨y 0, y 1, eq_ix2 y⟩
  have hr : 2000 * r + p.val < 50000 := by have := idx2_lt0 i; omega
  obtain rfl : i = ix2 ⟨2000 * r + p.val, hr⟩ q := by
    funext a; apply Fin.ext
    match a with
    | ⟨0, _⟩ => exact hi0
    | ⟨1, _⟩ => exact hi1
  rw [body_entry, Dense.layer_apply]
  unfold Dense.entry
  have h0 : ∀ k : Fin 128, x0 (ix2 p k) = A (ix2 ⟨2000 * r + p.val, hr⟩ k) := fun k => hA p k _ rfl rfl
  have h1 : ∀ k : Fin 128, x1 (ix2 p k) = H (ix2 ⟨2000 * r + p.val, hr⟩ k) := fun k => hH p k _ rfl rfl
  simp only [h0, h1]

/-- What point t writes back is block t of the layer's result. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero origin]
  simp only [View.ld_unit_zero (S := S2000x128) origin, View.ld_unit_zero (S := S64x128) origin, View.ld_unit_zero (S := S1x64) origin]
  obtain ⟨-, -, -, -, -, -, -, -, -, -, e, e'⟩ := index_maps t
  funext j
  show k1_pay1 (F := Ideal) (iblk1 V c 0 t) (iblk1 V c 1 t) (iblk1 V c 2 t) (iblk1 V c 3 t) (iblk1 V c 4 t) j
    = result V c (((cfg1.win 5).blk t).view.emb j)
  refine block_value (iblk1 V c 0 t) (iblk1 V c 1 t) (iblk1 V c 2 t) (iblk1 V c 3 t) (iblk1 V c 4 t)
    (V c main_v32) (V c main_v20) (V c main_arg5) (V c main_arg7) (V c main_v33) t.val
    (agg_block V c t) (h_block V c t) (wrel_block V c t) (wroot_block V c t) (bias_block V c t) j _ ?_ ?_
  · show win1_5.index t (0 : Fin 2) * 2000 + 1 * (j 0).val = 2000 * t.val + (j 0).val; rw [e]; omega
  · show win1_5.index t (1 : Fin 2) * 64 + 1 * (j 1).val = (j 1).val; rw [e']; omega

/-! ## The blocks cover the array -/

/-- An index of the result is in point t's block iff each coordinate is in the block's range on its axis. -/
theorem mem_block (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v34).slice (win1_5.rect t)).set ↔ _
  rw [View.set_slice_whole, Rect.mem_set_unit]
  exact Iff.rfl

/-- Row r of the result is in the block of point r / 2000. -/
theorem covered (i : S50000x64.Idx) :
    ∃ t : Fin cfg1.N, (cfg1.win 5).flush t = true ∧ i ∈ ((cfg1.win 5).blk t).view.set := by
  have hi0 : (i 0).val < 50000 := idx2_lt0 i
  have hi1 : (i 1).val < 64 := idx2_lt1 i
  have hN : (i 0).val / 2000 < cfg1.N := by rw [show cfg1.N = 25 from N_1]; omega
  refine ⟨⟨(i 0).val / 2000, hN⟩, flush1_5 _, ?_⟩
  rw [mem_block]
  obtain ⟨-, -, -, -, -, -, -, -, -, -, e, e'⟩ := index_maps ⟨(i 0).val / 2000, hN⟩
  intro a
  match a with
  | ⟨0, _⟩ =>
    show win1_5.index ⟨(i 0).val / 2000, hN⟩ (0 : Fin 2) * 2000 ≤ (i 0).val ∧ (i 0).val < win1_5.index ⟨(i 0).val / 2000, hN⟩ (0 : Fin 2) * 2000 + 2000
    rw [e]; show (i 0).val / 2000 * 2000 ≤ (i 0).val ∧ (i 0).val < (i 0).val / 2000 * 2000 + 2000; omega
  | ⟨1, _⟩ =>
    show win1_5.index ⟨(i 0).val / 2000, hN⟩ (1 : Fin 2) * 64 ≤ (i 1).val ∧ (i 1).val < win1_5.index ⟨(i 0).val / 2000, hN⟩ (1 : Fin 2) * 64 + 64
    rw [e']; omega

/-- The result array after the region is the layer's result of the arrays the region found. -/
theorem array_eq (c : Dev nD) : (dat1 V c).arrAt 5 cfg1.N = result V c :=
  (dat1 V c).arrAt_eq_of_cover 5 (result V c) (fun t _ => flushed_eq V c t) (covered)

end Cert.KernelIdeal.Layer2

end
-- ==== Proof.RefLayers.lean ====
/-
  The reference's two layers, index by index.

  Each layer of the reference multiplies the neighbour sums by the transposed neighbour weights, adds the bias
  broadcast down the rows, adds the features times the transposed root weights, and (first layer only) takes the
  maximum with zero. At entry (p, q) that is `(Σ_k agg (p, k) · wrel (q, k) + b q) + Σ_k x (p, k) · wroot (q, k)`:
  the dense layer of `Dense` with the two last summands in the other order, and addition of extended reals is
  commutative and associative. The bias reaches the kernel as a 1 × Fo row; any row `B` whose entry (0, q) is `b q`
  serves.
-/
import proofs.«120070_j68865505624262_1_alg».proof.Proof.Gen.ReferenceIdeal.Read
import proofs.«120070_j68865505624262_1_alg».proof.Proof.Dense

noncomputable section

namespace Cert.ReferenceIdeal.Layers

open Cert.ReferenceIdeal Cert.ReferenceIdeal.Read Idealize.ShloMosaic Idealize.ShloMosaic.ValueIdx

/-- The first layer with its rectifier: the reference's stage after `relu` is the dense layer of the scattered
    neighbour sums and the features. -/
theorem layer1_eq (x0 : (⟨S50000x96, .f32⟩ : BufTy).Contents (Elt Ideal)) (x1 : (⟨S2x800000, .i32⟩ : BufTy).Contents (Elt Ideal)) (x2 : (⟨S128x96, .f32⟩ : BufTy).Contents (Elt Ideal))
    (x3 : (⟨S128, .f32⟩ : BufTy).Contents (Elt Ideal)) (x4 : (⟨S128x96, .f32⟩ : BufTy).Contents (Elt Ideal))
    (B : FVec Ideal S1x128 .f32) (hB : ∀ q : Fin 128, B (ix2 0 q) = x3 (ix1 q)) :
    val_main_v27 (F := Ideal) x0 x1 x2 x3 x4
      = Dense.layerRelu (N := 50000) (Fi := 96) (Fo := 128) (val_main_v18 (F := Ideal) x0 x1) x0 x2 x4 B := by
  funext i
  obtain ⟨p, q, rfl⟩ : ∃ (p : Fin 50000) (q : Fin 128), i = ix2 p q := ⟨i 0, i 1, eq_ix2 i⟩
  have el (k : Fin 96) : lidx_main_v20 (ix2 p q) k = ix2 p k :=
    funext fun a => Fin.ext (by match a with | ⟨0, _⟩ => rfl | ⟨1, _⟩ => rfl)
  have er (k : Fin 96) : idx_main_v19 (ridx_main_v20 (ix2 p q) k) = ix2 q k :=
    funext fun a => Fin.ext (by match a with | ⟨0, _⟩ => rfl | ⟨1, _⟩ => rfl)
  have el' (k : Fin 96) : lidx_main_v25 (ix2 p q) k = ix2 p k :=
    funext fun a => Fin.ext (by match a with | ⟨0, _⟩ => rfl | ⟨1, _⟩ => rfl)
  have er' (k : Fin 96) : idx_main_v24 (ridx_main_v25 (ix2 p q) k) = ix2 q k :=
    funext fun a => Fin.ext (by match a with | ⟨0, _⟩ => rfl | ⟨1, _⟩ => rfl)
  have eb : idx_main_v21 (idx_main_v22 (ix2 p q)) = ix1 q :=
    funext fun a => Fin.ext (by match a with | ⟨0, _⟩ => rfl)
  rw [val_main_v27_apply, val_main_v26_apply, val_main_v23_apply, val_main_v20_apply, val_main_v25_apply,
    val_main_v22_apply, val_main_v21_apply, val_main_call0_v0_apply, val_main_call0_cst_apply]
  simp only [val_main_v19_apply, val_main_v24_apply, el, er, el', er', eb, Ideal.addf_def, Ideal.maximumf_def, Ideal.ofBits_def]
  rw [Dense.layerRelu_apply]
  unfold Dense.entry
  rw [hB q, add_right_comm]

/-- The second layer: the reference's result is the dense layer of the second scatter's sums and the first
    layer's output. -/
theorem layer2_eq (x0 : (⟨S50000x96, .f32⟩ : BufTy).Contents (Elt Ideal)) (x1 : (⟨S2x800000, .i32⟩ : BufTy).Contents (Elt Ideal)) (x2 : (⟨S128x96, .f32⟩ : BufTy).Contents (Elt Ideal))
    (x3 : (⟨S128, .f32⟩ : BufTy).Contents (Elt Ideal)) (x4 : (⟨S128x96, .f32⟩ : BufTy).Contents (Elt Ideal)) (x5 : (⟨S64x128, .f32⟩ : BufTy).Contents (Elt Ideal))
    (x6 : (⟨S64, .f32⟩ : BufTy).Contents (Elt Ideal)) (x7 : (⟨S64x128, .f32⟩ : BufTy).Contents (Elt Ideal))
    (B : FVec Ideal S1x64 .f32) (hB : ∀ q : Fin 64, B (ix2 0 q) = x6 (ix1 q)) :
    val_main_v47 (F := Ideal) x0 x1 x2 x3 x4 x5 x6 x7
      = Dense.layer (N := 50000) (Fi := 128) (Fo := 64) (val_main_v39 (F := Ideal) x0 x1 x2 x3 x4)
          (val_main_v27 (F := Ideal) x0 x1 x2 x3 x4) x5 x7 B := by
  funext i
  obtain ⟨p, q, rfl⟩ : ∃ (p : Fin 50000) (q : Fin 64), i = ix2 p q := ⟨i 0, i 1, eq_ix2 i⟩
  have el (k : Fin 128) : lidx_main_v41 (ix2 p q) k = ix2 p k :=
    funext fun a => Fin.ext (by match a with | ⟨0, _⟩ => rfl | ⟨1, _⟩ => rfl)
  have er (k : Fin 128) : idx_main_v40 (ridx_main_v41 (ix2 p q) k) = ix2 q k :=
    funext fun a => Fin.ext (by match a with | ⟨0, _⟩ => rfl | ⟨1, _⟩ => rfl)
  have el' (k : Fin 128) : lidx_main_v46 (ix2 p q) k = ix2 p k :=
    funext fun a => Fin.ext (by match a with | ⟨0, _⟩ => rfl | ⟨1, _⟩ => rfl)
  have er' (k : Fin 128) : idx_main_v45 (ridx_main_v46 (ix2 p q) k) = ix2 q k :=
    funext fun a => Fin.ext (by match a with | ⟨0, _⟩ => rfl | ⟨1, _⟩ => rfl)
  have eb : idx_main_v42 (idx_main_v43 (ix2 p q)) = ix1 q :=
    funext fun a => Fin.ext (by match a with | ⟨0, _⟩ => rfl)
  rw [val_main_v47_apply, val_main_v44_apply, val_main_v41_apply, val_main_v46_apply,
    val_main_v43_apply, val_main_v42_apply]
  simp only [val_main_v40_apply, val_main_v45_apply, el, er, el', er', eb, Ideal.addf_def]
  rw [Dense.layer_apply]
  unfold Dense.entry
  rw [hB q, add_right_comm]

end Cert.ReferenceIdeal.Layers

end
-- ==== Proof.KernelValue.lean ====
/-
  The kernel program's result as a function of its arguments.

  The program is four stretches. Host operations first split the edge list into sources and destinations, gather
  the source rows of the features, zero the self-loops and scatter-add the rows at their destinations: the first
  neighbour sums. The first region then writes the dense layer with its rectifier of those sums and the features
  (`Layer1.array_eq`). The same host operations on the layer's output give the second neighbour sums, and the second
  region writes the dense layer, without a rectifier, of those and the first layer's output (`Layer2.array_eq`).
  The host stretches are the reference's own operations on the same values, so they are carried as the
  reference's stage functions and never opened; each region's array is the reference's stage after it by
  `Layers.layer1_eq` / `layer2_eq`. The bias reaches a region as a 1 × Fo reshape of the bias vector, whose entry
  (0, q) is the vector's entry q.
-/
import proofs.«120070_j68865505624262_1_alg».proof.Proof.KernelRun
import proofs.«120070_j68865505624262_1_alg».proof.Proof.Layer1Array
import proofs.«120070_j68865505624262_1_alg».proof.Proof.Layer2Array
import proofs.«120070_j68865505624262_1_alg».proof.Proof.RefLayers
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read (val_main_v1 val_main_v3 val_main_v6 val_main_v18 val_main_v27 val_main_v39 val_main_v47)

variable (m : (ℓ : Loc nD τ sig) → Buf (Elt Ideal) ℓ) (ρ : Dev nD → PrngReg)

/-! ## A bias vector reshaped to a row -/

theorem bias1_row (b : FVec Ideal S128 .f32) (q : Fin 128) :
    shapeCast S1x128 b shapeCasts_S128_S1x128 (ix2 0 q) = b (ix1 q) :=
  (shapeCast_addUnit_apply ![128] b shapeCasts_S128_S1x128 (ix2 0 q)).trans
    (congrArg b (funext fun a => by match a with | ⟨0, _⟩ => rfl))

theorem bias2_row (b : FVec Ideal S64 .f32) (q : Fin 64) :
    shapeCast S1x64 b shapeCasts_S64_S1x64 (ix2 0 q) = b (ix1 q) :=
  (shapeCast_addUnit_apply ![64] b shapeCasts_S64_S1x64 (ix2 0 q)).trans
    (congrArg b (funext fun a => by match a with | ⟨0, _⟩ => rfl))

/-! ## What the first region finds -/

/-- The first neighbour sums: the reference's scatter stage of the features and the edge list. -/
theorem entry1_agg (c : Dev nD) : V1 m ρ c main_v18 = val_main_v18 (F := Ideal) (m ((c : Thread nD τ).loc main_arg0)) (m ((c : Thread nD τ).loc main_arg1)) := by
  show StableHlo.after hostOps0 (W0 m ρ c) (Proc.devRef .tc main_v18) = _
  dsimp only [hostOps0]
  after_results_simp
  rfl

theorem entry1_x (c : Dev nD) : V1 m ρ c main_arg0 = (m ((c : Thread nD τ).loc main_arg0)) := by
  show StableHlo.after hostOps0 (W0 m ρ c) (Proc.devRef .tc main_arg0) = _
  dsimp only [hostOps0]
  after_results_simp <;> rfl

theorem entry1_wrel (c : Dev nD) : V1 m ρ c main_arg2 = (m ((c : Thread nD τ).loc main_arg2)) := by
  show StableHlo.after hostOps0 (W0 m ρ c) (Proc.devRef .tc main_arg2) = _
  dsimp only [hostOps0]
  after_results_simp <;> rfl

theorem entry1_wroot (c : Dev nD) : V1 m ρ c main_arg4 = (m ((c : Thread nD τ).loc main_arg4)) := by
  show StableHlo.after hostOps0 (W0 m ρ c) (Proc.devRef .tc main_arg4) = _
  dsimp only [hostOps0]
  after_results_simp <;> rfl

theorem entry1_bias (c : Dev nD) : V1 m ρ c main_v19 = shapeCast S1x128 (m ((c : Thread nD τ).loc main_arg3)) shapeCasts_S128_S1x128 := by
  show StableHlo.after hostOps0 (W0 m ρ c) (Proc.devRef .tc main_v19) = _
  dsimp only [hostOps0]
  after_results_simp <;> rfl

/-! ## After the first region -/

/-- The first layer's output is the reference's stage after its rectifier. -/
theorem hidden_eq (c : Dev nD) :
    W2 m ρ c (Proc.devRef .tc main_v20) = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  refine (Layer1.array_eq (V1 m ρ) c).trans ?_
  show Dense.layerRelu (N := 50000) (Fi := 96) (Fo := 128) (V1 m ρ c main_v18) (V1 m ρ c main_arg0) (V1 m ρ c main_arg2) (V1 m ρ c main_arg4) (V1 m ρ c main_v19) = _
  rw [entry1_agg m ρ c, entry1_x m ρ c, entry1_wrel m ρ c, entry1_wroot m ρ c, entry1_bias m ρ c]
  exact (Cert.ReferenceIdeal.Layers.layer1_eq _ _ _ _ _ _ (bias1_row _)).symm

/-- A buffer the first region does not write holds after it what the first host stretch left there. -/
theorem W2_host (c : Dev nD) (b : Ref sig .tc) (hb : ∀ w, Pipeline.arrRef spec0 w ≠ b)
    {v : Buf (Elt Ideal) ((c : Thread nD τ).loc b)} (h : StableHlo.after hostOps0 (W0 m ρ c) (Proc.devRef .tc b) = v) :
    W2 m ρ c (Proc.devRef .tc b) = v :=
  (W2_of_ne m ρ c b hb).trans h

/-- The sources, the destinations and the self-loop mask are still the reference's stages of the edge list. -/
theorem mid_src (c : Dev nD) : W2 m ρ c (Proc.devRef .tc main_v1) = val_main_v1 (F := Ideal) (m ((c : Thread nD τ).loc main_arg1)) :=
  W2_host m ρ c main_v1 (by decide) (by dsimp only [hostOps0]; after_results_simp; rfl)

theorem mid_dst (c : Dev nD) : W2 m ρ c (Proc.devRef .tc main_v3) = val_main_v3 (F := Ideal) (m ((c : Thread nD τ).loc main_arg1)) :=
  W2_host m ρ c main_v3 (by decide) (by dsimp only [hostOps0]; after_results_simp; rfl)

theorem mid_mask (c : Dev nD) : W2 m ρ c (Proc.devRef .tc main_v6) = val_main_v6 (F := Ideal) (m ((c : Thread nD τ).loc main_arg1)) :=
  W2_host m ρ c main_v6 (by decide) (by dsimp only [hostOps0]; after_results_simp; rfl)

theorem mid_wrel (c : Dev nD) : W2 m ρ c (Proc.devRef .tc main_arg5) = (m ((c : Thread nD τ).loc main_arg5)) :=
  W2_host m ρ c main_arg5 (by decide) (by dsimp only [hostOps0]; after_results_simp <;> rfl)

theorem mid_wroot (c : Dev nD) : W2 m ρ c (Proc.devRef .tc main_arg7) = (m ((c : Thread nD τ).loc main_arg7)) :=
  W2_host m ρ c main_arg7 (by decide) (by dsimp only [hostOps0]; after_results_simp <;> rfl)

theorem mid_bias (c : Dev nD) : W2 m ρ c (Proc.devRef .tc main_arg6) = (m ((c : Thread nD τ).loc main_arg6)) :=
  W2_host m ρ c main_arg6 (by decide) (by dsimp only [hostOps0]; after_results_simp <;> rfl)

/-! ## What the second region finds -/

/-- The second neighbour sums: the reference's second scatter stage. -/
theorem entry2_agg (c : Dev nD) :
    V3 m ρ c main_v32 = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v32) = _
  dsimp only [hostOps1]
  after_results_simp
  rw [mid_src m ρ c, mid_dst m ρ c, mid_mask m ρ c, hidden_eq m ρ c]
  rfl

theorem entry2_h (c : Dev nD) :
    V3 m ρ c main_v20 = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v20) = _
  dsimp only [hostOps1]
  after_results_simp
  exact hidden_eq m ρ c

theorem entry2_wrel (c : Dev nD) : V3 m ρ c main_arg5 = (m ((c : Thread nD τ).loc main_arg5)) := by
  show StableHlo.after hostOps1 (W2 m ρ c) (Proc.devRef .tc main_arg5) = _
  dsimp only [hostOps1]
  after_results_simp
  exact mid_wrel m ρ c

theorem entry2_wroot (c : Dev nD) : V3 m ρ c main_arg7 = (m ((c : Thread nD τ).loc main_arg7)) := by
  show StableHlo.after hostOps1 (W2 m ρ c) (Proc.devRef .tc main_arg7) = _
  dsimp only [hostOps1]
  after_results_simp
  exact mid_wroot m ρ c

theorem entry2_bias (c : Dev nD) : V3 m ρ c main_v33 = shapeCast S1x64 (m ((c : Thread nD τ).loc main_arg6)) shapeCasts_S64_S1x64 := by
  show StableHlo.after hostOps1 (W2 m ρ c) (Proc.devRef .tc main_v33) = _
  dsimp only [hostOps1]
  after_results_simp
  rw [mid_bias m ρ c]
  rfl

/-! ## After the second region -/

/-- The result buffer ends at the reference's last stage of the arguments. -/
theorem result_eq (c : Dev nD) :
    W4 m ρ c (Proc.devRef .tc main_v34)
      = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  refine (Layer2.array_eq (V3 m ρ) c).trans ?_
  show Dense.layer (N := 50000) (Fi := 128) (Fo := 64) (V3 m ρ c main_v32) (V3 m ρ c main_v20) (V3 m ρ c main_arg5) (V3 m ρ c main_arg7) (V3 m ρ c main_v33) = _
  rw [entry2_agg m ρ c, entry2_h m ρ c, entry2_wrel m ρ c, entry2_wroot m ρ c, entry2_bias m ρ c]
  exact (Cert.ReferenceIdeal.Layers.layer2_eq _ _ _ _ _ _ _ _ _ (bias2_row _)).symm

/-! ## The run -/

/-- Every weakly fair execution of the kernel program terminates without a fault, its result at the reference's last
    stage of the argument arrays, the arguments as launched. -/
theorem run : θ_run defs (onTc (τ := τ) (main (F := Ideal))) ⟨m, fun _ => 0, ρ⟩ (fun r => ∀ c : Dev nD,
      r.2.mem ((c.tc : Thread nD τ).loc main_v34)
        = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩)
    (Cert.KernelIdeal.Named.run_named (F := Ideal) m ρ)

end Cert.KernelIdeal.Whole

end
-- ==== Proof.lean ====
/-
  A two-layer graph convolution, its dense parts as two tiled kernels, against the plain jnp reference.

  Both programs compute, for node features x (50000 × 96) and an edge list,
      agg₁ = the sum over the edges into each node of the source's feature row (self-loops zeroed),
      h    = max (agg₁ · W1_relᵀ + b1 + x · W1_rootᵀ) 0,
      agg₂ = the same sums of h's rows,
      out  = agg₂ · W2_relᵀ + b2 + h · W2_rootᵀ.
  The reference does all of it with host operations. The kernel program does the gathers and scatter-adds with the
  SAME host operations, and each dense part as a pallas_call over 25 blocks of 2000 rows: the block's two matrix
  products with the transposed weights (operands rounded to bf16: the identity on the extended reals), their sum,
  plus the bias row, and for the first layer the maximum with zero. Per entry the kernel adds
  (Σ agg·wrel + Σ x·wroot) + b where the reference adds (Σ agg·wrel + b) + Σ x·wroot: equal because addition of
  extended reals is commutative and associative, so finiteness of the inputs is never used.

  The modules: `Dense` (a layer's dense part as a function of whole arrays), `Layer1Body` / `Layer2Body` (a kernel
  body's stored value at an entry), `Layer1Array` / `Layer2Array` (what a grid point writes back, the cover, the
  whole array after the region), `RefLayers` (the reference's stages are the same dense layers), `KernelRun` (the
  program's run with the result buffer named), `KernelValue` (the result as the reference's last stage of the
  arguments, the shared host operations carried unopened). Here: the five claims.
-/
import proofs.«120070_j68865505624262_1_alg».proof.Defs
import proofs.«120070_j68865505624262_1_alg».proof.Proof.Gen.Kernel
import proofs.«120070_j68865505624262_1_alg».proof.Proof.Gen.Kernel.Skeleton
import proofs.«120070_j68865505624262_1_alg».proof.Proof.Gen.Kernel.Launch
import proofs.«120070_j68865505624262_1_alg».proof.Proof.Gen.Kernel.Points
import proofs.«120070_j68865505624262_1_alg».proof.Proof.Gen.Kernel.Frame
import proofs.«120070_j68865505624262_1_alg».proof.Proof.Gen.KernelIdeal
import proofs.«120070_j68865505624262_1_alg».proof.Proof.Gen.KernelIdeal.Skeleton
import proofs.«120070_j68865505624262_1_alg».proof.Proof.Gen.KernelIdeal.Launch
import proofs.«120070_j68865505624262_1_alg».proof.Proof.Gen.KernelIdeal.Points
import proofs.«120070_j68865505624262_1_alg».proof.Proof.Gen.KernelIdeal.Frame
import proofs.«120070_j68865505624262_1_alg».proof.Proof.Gen.ReferenceIdeal
import proofs.«120070_j68865505624262_1_alg».proof.Proof.Gen.Pre_finite_inputs
import proofs.«120070_j68865505624262_1_alg».proof.Proof.Gen.ReferenceIdeal.Run
import proofs.«120070_j68865505624262_1_alg».proof.Proof.Gen.ReferenceIdeal.Read
import proofs.«120070_j68865505624262_1_alg».proof.Proof.KernelValue
import Idealize.ShloMosaic.Adequacy
import Idealize.ShloMosaic.Init

noncomputable section

namespace Cert.Proof

open Idealize.ShloMosaic Idealize.SL.Sem

/-- The word-level kernel program runs, and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the reference's last stage of the (agreeing) argument arrays in their result. -/
theorem algebraic : Cert.algebraic_KernelIdeal_ReferenceIdeal := by
  intro m ρ m' ρ' _ hagree
  refine ⟨fun c => Cert.ReferenceIdeal.Read.val_main_v47 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v47_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
